-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1024 : Shape := ⟨3, ![16, 512, 1024]⟩
abbrev S16x512 : Shape := ⟨2, ![16, 512]⟩
abbrev S1024x1024 : Shape := ⟨2, ![1024, 1024]⟩
abbrev S2048x1024 : Shape := ⟨2, ![2048, 1024]⟩
abbrev S1024 : Shape := ⟨1, ![1024]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16x512x1024 .f32) (main_arg1 : FVec F S16x512x1024 .f32) (main_arg2 : IVec S16x512 32) (main_arg3 : FVec F S1024x1024 .f32) (main_arg4 : FVec F S2048x1024 .f32) (main_arg5 : FVec F S1024 .f32) : IVec S_ 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  let main_v4 : FVec F S16x512x1024 .f32 := Host.absf main_arg1
  let main_cst_0 : FVec F S_ .f32 := constant S_ .f32 0x7F800000#32
  let main_v5 : FVec F S16x512x1024 .f32 := broadcastInDim S16x512x1024 ![] bcast_S_S16x512x1024 main_cst_0
  let main_v6 : IVec S16x512x1024 1 := cmpf .olt main_v4 main_v5
  let main_c_1 : IVec S_ 1 := constantI S_ 1 1#1
  let main_v7 : IVec S_ 1 := (fun x v => Host.reduce IntOp.andi x v reducesTo_S16x512x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg5 main_v13 main_v16
-- ==== Kernel.lean ====
abbrev S16x512x1024 : Shape := ⟨3, ![16, 512, 1024]⟩
abbrev S16x512 : Shape := ⟨2, ![16, 512]⟩
abbrev S1024x1024 : Shape := ⟨2, ![1024, 1024]⟩
abbrev S2048x1024 : Shape := ⟨2, ![2048, 1024]⟩
abbrev S1024 : Shape := ⟨1, ![1024]⟩
abbrev S_ : Shape := ⟨0, ![]⟩
abbrev S16 : Shape := ⟨1, ![16]⟩
abbrev S512 : Shape := ⟨1, ![512]⟩
abbrev S1x512 : Shape := ⟨2, ![1, 512]⟩
abbrev S16x1 : Shape := ⟨2, ![16, 1]⟩
abbrev S16x1x512 : Shape := ⟨3, ![16, 1, 512]⟩
abbrev S1x1024 : Shape := ⟨2, ![1, 1024]⟩
abbrev S1x1x512 : Shape := ⟨3, ![1, 1, 512]⟩
abbrev S1x512x1024 : Shape := ⟨3, ![1, 512, 1024]⟩
abbrev S512x1024 : Shape := ⟨2, ![512, 1024]⟩
abbrev S512x512 : Shape := ⟨2, ![512, 512]⟩
abbrev S512x1 : Shape := ⟨2, ![512, 1]⟩

abbrev nBuf : Space → Nat
  | .hbm => 27
  | .vmem => 12
  | .smem => 0
  | _ => 0

abbrev bufTy : (tb : Table) → Fin (tcTables nBuf tb) → BufTy
  | .hbm, ⟨0, _⟩ => ⟨S16x512x1024, .f32⟩
  | .hbm, ⟨1, _⟩ => ⟨S16x512x1024, .f32⟩
  | .hbm, ⟨2, _⟩ => ⟨S16x512, .i32⟩
  | .hbm, ⟨3, _⟩ => ⟨S1024x1024, .f32⟩
  | .hbm, ⟨4, _⟩ => ⟨S2048x1024, .f32⟩
  | .hbm, ⟨5, _⟩ => ⟨S1024, .f32⟩
  | .hbm, ⟨6, _⟩ => ⟨S_, .i32⟩
  | .hbm, ⟨7, _⟩ => ⟨S16x512, .i32⟩
  | .hbm, ⟨8, _⟩ => ⟨S16x512, .i1⟩
  | .hbm, ⟨9, _⟩ => ⟨S16x512, .i32⟩
  | .hbm, ⟨10, _⟩ => ⟨S_, .i32⟩
  | .hbm, ⟨11, _⟩ => ⟨S16, .i32⟩
  | .hbm, ⟨12, _⟩ => ⟨S512, .i32⟩
  | .hbm, ⟨13, _⟩ => ⟨S1x512, .i32⟩
  | .hbm, ⟨14, _⟩ => ⟨S16x1, .i32⟩
  | .hbm, ⟨15, _⟩ => ⟨S16x512, .i32⟩
  | .hbm, ⟨16, _⟩ => ⟨S16x512, .i32⟩
  | .hbm, ⟨17, _⟩ => ⟨S16x512, .i1⟩
  | .hbm, ⟨18, _⟩ => ⟨S16x512, .f32⟩
  | .hbm, ⟨19, _⟩ => ⟨S16x1x512, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S16x512x1024, .f32⟩
  | .local _ .vmem, ⟨0, _⟩ => ⟨S1x1x512, .f32⟩
  | .local _ .vmem, ⟨1, _⟩ => ⟨S1x1x512, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16x512 : S_.BroadcastsInDim S16x512 (![] : Fin 0 → Fin S16x512.rank)
  natLt_1_32 : 1 < 32
  reducesTo_S16x512_S16_d1 : S16x512.ReducesTo [1] S16
  h_S_ : 0 < S_.numel
  bcast_S512_S1x512_1 : S512.BroadcastsInDim S1x512 (![1] : Fin 1 → Fin S1x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  bcast_S16x512_S16x1x512_0_2 : S16x512.BroadcastsInDim S16x1x512 (![0, 2] : Fin 2 → Fin S16x1x512.rank)
  bitsLt_bf16_f32 : FTy.bits .bf16 < FTy.bits .f32
  slices_S2048x1024_S1024x1024_0_0 : S2048x1024.Slices ![0, 0] S1024x1024
  slices_S2048x1024_S1024x1024_1024_0 : S2048x1024.Slices ![1024, 0] S1024x1024
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  reduces_S512x512_S512 : S512x512.Reduces [1] S512
  shapeCasts_S512_S512x1 : S512.ShapeCasts S512x1
  broadcasts_S512x1_S512x512 : S512x1.Broadcasts S512x512
  broadcasts_S1x512_S512x512 : S1x512.Broadcasts S512x512
  broadcasts_S1x1024_S512x1024 : S1x1024.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S16x1x512.size a
  hwx0_0 : ∀ i : grid0.Coords, EltTy.bits .f32 = 32 ∨ (Rect.block (s := S16x1x512) S1x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x512x1024.size a
  hwx0_1 : ∀ i : grid0.Coords, EltTy.bits .f32 = 32 ∨ (Rect.block (s := S16x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x512x1024.size a
  hwx0_2 : ∀ i : grid0.Coords, EltTy.bits .f32 = 32 ∨ (Rect.block (s := S16x512x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S16x512x1024.size a
  hwx0_7 : ∀ i : grid0.Coords, EltTy.bits .f32 = 32 ∨ (Rect.block (s := S16x512x1024) S1x512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v11) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x512x1024 : Shape := ⟨3, ![16, 512, 1024]⟩
abbrev S16x512 : Shape := ⟨2, ![16, 512]⟩
abbrev S1024x1024 : Shape := ⟨2, ![1024, 1024]⟩
abbrev S2048x1024 : Shape := ⟨2, ![2048, 1024]⟩
abbrev S1024 : Shape := ⟨1, ![1024]⟩
abbrev S16x512x512 : Shape := ⟨3, ![16, 512, 512]⟩
abbrev S_ : Shape := ⟨0, ![]⟩
abbrev S16x512x1 : Shape := ⟨3, ![16, 512, 1]⟩
abbrev S16 : Shape := ⟨1, ![16]⟩
abbrev S512 : Shape := ⟨1, ![512]⟩
abbrev S1x512 : Shape := ⟨2, ![1, 512]⟩
abbrev S16x1 : Shape := ⟨2, ![16, 1]⟩
abbrev S16x1x512 : Shape := ⟨3, ![16, 1, 512]⟩
abbrev S16x512x2048 : Shape := ⟨3, ![16, 512, 2048]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16x512x1024, .f32⟩
  | .hbm, ⟨1, _⟩ => ⟨S16x512x1024, .f32⟩
  | .hbm, ⟨2, _⟩ => ⟨S16x512, .i32⟩
  | .hbm, ⟨3, _⟩ => ⟨S1024x1024, .f32⟩
  | .hbm, ⟨4, _⟩ => ⟨S2048x1024, .f32⟩
  | .hbm, ⟨5, _⟩ => ⟨S1024, .f32⟩
  | .hbm, ⟨6, _⟩ => ⟨S16x512x1024, .f32⟩
  | .hbm, ⟨7, _⟩ => ⟨S16x512x512, .f32⟩
  | .hbm, ⟨8, _⟩ => ⟨S_, .f32⟩
  | .hbm, ⟨9, _⟩ => ⟨S16x512, .f32⟩
  | .hbm, ⟨10, _⟩ => ⟨S16x512x1, .f32⟩
  | .hbm, ⟨11, _⟩ => ⟨S16x512x512, .f32⟩
  | .hbm, ⟨12, _⟩ => ⟨S16x512x512, .f32⟩
  | .hbm, ⟨13, _⟩ => ⟨S16x512x512, .f32⟩
  | .hbm, ⟨14, _⟩ => ⟨S_, .i32⟩
  | .hbm, ⟨15, _⟩ => ⟨S16x512, .i32⟩
  | .hbm, ⟨16, _⟩ => ⟨S16x512, .i1⟩
  | .hbm, ⟨17, _⟩ => ⟨S16x512, .i32⟩
  | .hbm, ⟨18, _⟩ => ⟨S_, .i32⟩
  | .hbm, ⟨19, _⟩ => ⟨S16, .i32⟩
  | .hbm, ⟨20, _⟩ => ⟨S512, .i32⟩
  | .hbm, ⟨21, _⟩ => ⟨S1x512, .i32⟩
  | .hbm, ⟨22, _⟩ => ⟨S16x1, .i32⟩
  | .hbm, ⟨23, _⟩ => ⟨S16x512, .i32⟩
  | .hbm, ⟨24, _⟩ => ⟨S16x512, .i32⟩
  | .hbm, ⟨25, _⟩ => ⟨S16x512, .i1⟩
  | .hbm, ⟨26, _⟩ => ⟨S16x512, .f32⟩
  | .hbm, ⟨27, _⟩ => ⟨S16x1x512, .f32⟩
  | .hbm, ⟨28, _⟩ => ⟨S16x512x512, .f32⟩
  | .hbm, ⟨29, _⟩ => ⟨S16x512x512, .f32⟩
  | .hbm, ⟨30, _⟩ => ⟨S_, .f32⟩
  | .hbm, ⟨31, _⟩ => ⟨S16x512, .f32⟩
  | .hbm, ⟨32, _⟩ => ⟨S16x512x1, .f32⟩
  | .hbm, ⟨33, _⟩ => ⟨S16x512x512, .f32⟩
  | .hbm, ⟨34, _⟩ => ⟨S16x512x512, .f32⟩
  | .hbm, ⟨35, _⟩ => ⟨S16x512x1024, .f32⟩
  | .hbm, ⟨36, _⟩ => ⟨S16x512x2048, .f32⟩
  | .hbm, ⟨37, _⟩ => ⟨S16x512x1024, .f32⟩
  | .hbm, ⟨38, _⟩ => ⟨S1x1x1024, .f32⟩
  | .hbm, ⟨39, _⟩ => ⟨S16x512x1024, .f32⟩
  | .hbm, ⟨40, _⟩ => ⟨S16x512x1024, .f32⟩
  | .hbm, ⟨41, _⟩ => ⟨S16x512x1024, .f32⟩
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S_S16x512 : S_.BroadcastsInDim S16x512 (![] : Fin 0 → Fin S16x512.rank)
  natLt_1_32 : 1 < 32
  reducesTo_S16x512_S16_d1 : S16x512.ReducesTo [1] S16
  bcast_S512_S1x512_1 : S512.BroadcastsInDim S1x512 (![1] : Fin 1 → Fin S1x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  bcast_S16x512_S16x1x512_0_2 : S16x512.BroadcastsInDim S16x1x512 (![0, 2] : Fin 2 → Fin S16x1x512.rank)
  bcast_S16x1x512_S16x512x512_0_1_2 : S16x1x512.BroadcastsInDim S16x512x512 (![0, 1, 2] : Fin 3 → Fin S16x512x512.rank)
  concatenates_S16x512x1024_S16x512x1024_S16x512x2048_d2 : Shape.Concatenates [S16x512x1024, S16x512x1024] S16x512x2048 2
  bcast_S1024_S1x1x1024_2 : S1024.BroadcastsInDim S1x1x1024 (![2] : Fin 1 → Fin S1x1x1024.rank)
  bcast_S1x1x1024_S16x512x1024_0_1_2 : S1x1x1024.BroadcastsInDim S16x512x1024 (![0, 1, 2] : Fin 3 → Fin S16x512x1024.rank)
  dot_S16x512x1024_S1024x1024_S16x512x1024_2_0_01_1_n_n_wf : DotDims.WF S16x512x1024 S1024x1024 S16x512x1024 [2] [0] [0, 1] [1] [] []
  dot_S16x512x1024_S16x512x1024_S16x512x512_2_2_1_1_0_0_wf : DotDims.WF S16x512x1024 S16x512x1024 S16x512x512 [2] [2] [1] [1] [0] [0]
  dot_S16x512x512_S16x512x1024_S16x512x1024_2_1_1_2_0_0_wf : DotDims.WF S16x512x512 S16x512x1024 S16x512x1024 [2] [1] [1] [2] [0] [0]
  dot_S16x512x2048_S2048x1024_S16x512x1024_2_0_01_1_n_n_wf : DotDims.WF S16x512x2048 S2048x1024 S16x512x1024 [2] [0] [0, 1] [1] [] []

variable [Facts₀]

def dot_S16x512x1024_S1024x1024_S16x512x1024_2_0_01_1_n_n : DotDims S16x512x1024 S1024x1024 S16x512x1024 where
  lhsContracting := [2]
  rhsContracting := [0]
  lhsNonContracting := [0, 1]
  rhsNonContracting := [1]
  lhsBatch := []
  rhsBatch := []
  wf := dot_S16x512x1024_S1024x1024_S16x512x1024_2_0_01_1_n_n_wf
def dot_S16x512x1024_S16x512x1024_S16x512x512_2_2_1_1_0_0 : DotDims S16x512x1024 S16x512x1024 S16x512x512 where
  lhsContracting := [2]
  rhsContracting := [2]
  lhsNonContracting := [1]
  rhsNonContracting := [1]
  lhsBatch := [0]
  rhsBatch := [0]
  wf := dot_S16x512x1024_S16x512x1024_S16x512x512_2_2_1_1_0_0_wf
def dot_S16x512x512_S16x512x1024_S16x512x1024_2_1_1_2_0_0 : DotDims S16x512x512 S16x512x1024 S16x512x1024 where
  lhsContracting := [2]
  rhsContracting := [1]
  lhsNonContracting := [1]
  rhsNonContracting := [2]
  lhsBatch := [0]
  rhsBatch := [0]
  wf := dot_S16x512x512_S16x512x1024_S16x512x1024_2_1_1_2_0_0_wf
def dot_S16x512x2048_S2048x1024_S16x512x1024_2_0_01_1_n_n : DotDims S16x512x2048 S2048x1024 S16x512x1024 where
  lhsContracting := [2]
  rhsContracting := [0]
  lhsNonContracting := [0, 1]
  rhsNonContracting := [1]
  lhsBatch := []
  rhsBatch := []
  wf := dot_S16x512x2048_S2048x1024_S16x512x1024_2_0_01_1_n_n_wf

class Facts : Prop extends Facts₀ where

variable [Facts]
-- ==== Proof.Spec.lean ====
/-
  One batch of masked dot-product attention followed by an output projection, as functions of coordinates over the
  extended reals: for a batch with target rows `X` (512 × 1024), source rows `H` (512 × 1024), a score matrix `Wa`
  (1024 × 1024), a mask `Mk` over the 512 source positions, the two halves `Wt`, `Wb` (each 1024 × 1024) of the output
  matrix and a bias `Bi`,

    keys s l    = ∑ k, H s k · Wa k l
    score t s   = ∑ k, X t k · keys s k
    rowMax t    = the maximum over s of score t s, taken from −∞
    weight t s  = exp (score t s − rowMax t) · Mk s
    attn t s    = weight t s / ∑ s', weight t s'
    context t k = ∑ s, attn t s · H s k
    out t l     = tanh ((∑ k, context t k · Wt k l + ∑ k, X t k · Wb k l) + Bi l).

  The last line is written with the projection already split over the two halves of its contraction axis. A projection of
  the concatenated row (context t ‖ X t), of length 2048, against the whole 2048 × 1024 matrix is the same number: a sum over
  2048 terms is the sum of its first 1024 and its last 1024 terms (`sum_halves`), which uses only that addition on the extended
  reals is commutative and associative, so no entry has to be finite.

  `wholeOut` is the result over all 16 batches at once: entry (b, t, l) is the batch function of batch b's rows of the two
  activation arrays and of the mask, of the score matrix, of the top and the bottom 1024 rows of the 2048 × 1024 output
  matrix, and of the bias.
-/
import Idealize.ShloMosaic.PureOps.Ideal
import Idealize.ShloMosaic.PureOps.Ideal.Laws
import Mathlib.Algebra.BigOperators.Fin
import Idealize.ShloMosaic.Lib.ValueIdx

noncomputable section

namespace Cert.Attn

open Idealize.ShloMosaic Idealize.ShloMosaic.ValueIdx

/-- The keys of a batch: each source row projected by the score matrix. -/
def keys (H : Fin 512 → Fin 1024 → EReal) (Wa : Fin 1024 → Fin 1024 → EReal) (s : Fin 512) (l : Fin 1024) : EReal :=
  ∑ k : Fin 1024, H s k * Wa k l

/-- The score of target row `t` against source row `s`: the inner product of the target row with the source row's keys. -/
def score (X H : Fin 512 → Fin 1024 → EReal) (Wa : Fin 1024 → Fin 1024 → EReal) (t s : Fin 512) : EReal :=
  ∑ k : Fin 1024, X t k * keys H Wa s k

/-- The largest score of target row `t`, as the maximum taken from −∞ (the f32 pattern `0xFF800000`) over the source positions. -/
def rowMax (X H : Fin 512 → Fin 1024 → EReal) (Wa : Fin 1024 → Fin 1024 → EReal) (t : Fin 512) : EReal :=
  (Finset.univ : Finset (Fin 512)).fold max (Ideal.ofBits .f32 0xFF800000#32) (fun s => score X H Wa t s)

/-- The masked, shifted exponential of a score. -/
def weight (X H : Fin 512 → Fin 1024 → EReal) (Wa : Fin 1024 → Fin 1024 → EReal) (Mk : Fin 512 → EReal) (t s : Fin 512) : EReal :=
  Ideal.exp (score X H Wa t s - rowMax X H Wa t) * Mk s

/-- The attention weight: a row's weights divided by their sum. -/
def attn (X H : Fin 512 → Fin 1024 → EReal) (Wa : Fin 1024 → Fin 1024 → EReal) (Mk : Fin 512 → EReal) (t s : Fin 512) : EReal :=
  Ideal.div (weight X H Wa Mk t s) (∑ s' : Fin 512, weight X H Wa Mk t s')

/-- The context of target row `t`: the attention-weighted sum of the source rows. -/
def context (X H : Fin 512 → Fin 1024 → EReal) (Wa : Fin 1024 → Fin 1024 → EReal) (Mk : Fin 512 → EReal) (t : Fin 512) (k : Fin 1024) : EReal :=
  ∑ s : Fin 512, attn X H Wa Mk t s * H s k

/-- The batch's output: the context projected by the top half of the output matrix plus the target row projected by the
    bottom half, plus the bias, through `tanh`. -/
def blockOut (X H : Fin 512 → Fin 1024 → EReal) (Wa : Fin 1024 → Fin 1024 → EReal) (Mk : Fin 512 → EReal)
    (Wt Wb : Fin 1024 → Fin 1024 → EReal) (Bi : Fin 1024 → EReal) (t : Fin 512) (l : Fin 1024) : EReal :=
  Ideal.tanh ((∑ k : Fin 1024, context X H Wa Mk t k * Wt k l + ∑ k : Fin 1024, X t k * Wb k l) + Bi l)

/-- A sum over 2048 terms is the sum of its first 1024 terms plus the sum of its last 1024 terms. -/
theorem sum_halves (f : Fin 2048 → EReal) :
    ∑ k : Fin 2048, f k = ∑ k : Fin 1024, f ⟨k.val, by omega⟩ + ∑ k : Fin 1024, f ⟨1024 + k.val, by omega⟩ :=
  Fin.sum_univ_add (a := 1024) (b := 1024) f

/-! ## The arrays of all 16 batches -/

/-- The rows of batch `b` of a 16 × 512 × 1024 array. -/
abbrev rowsOf (x : (⟨3, ![16, 512, 1024]⟩ : Shape).Idx → EReal) (b : Fin 16) : Fin 512 → Fin 1024 → EReal :=
  fun t k => x (ix3 b t k)

/-- Batch `b`'s row of a 16 × 1 × 512 mask. -/
abbrev maskOf (mk : (⟨3, ![16, 1, 512]⟩ : Shape).Idx → EReal) (b : Fin 16) : Fin 512 → EReal :=
  fun s => mk (ix3 b (0 : Fin 1) s)

/-- A 1024 × 1024 matrix by coordinates. -/
abbrev matOf (w : (⟨2, ![1024, 1024]⟩ : Shape).Idx → EReal) : Fin 1024 → Fin 1024 → EReal :=
  fun k l => w (ix2 k l)

/-- The top 1024 rows of a 2048 × 1024 matrix. -/
abbrev topOf (w : (⟨2, ![2048, 1024]⟩ : Shape).Idx → EReal) : Fin 1024 → Fin 1024 → EReal :=
  fun k l => w (ix2 (⟨k.val, by omega⟩ : Fin 2048) l)

/-- The bottom 1024 rows of a 2048 × 1024 matrix. -/
abbrev botOf (w : (⟨2, ![2048, 1024]⟩ : Shape).Idx → EReal) : Fin 1024 → Fin 1024 → EReal :=
  fun k l => w (ix2 (⟨1024 + k.val, by omega⟩ : Fin 2048) l)

/-- A vector of 1024 numbers by its coordinate. -/
abbrev vecOf (v : (⟨1, ![1024]⟩ : Shape).Idx → EReal) : Fin 1024 → EReal :=
  fun l => v (ix1 l)

/-- The result over all batches, entry by entry. -/
def wholeOut (ht hs : (⟨3, ![16, 512, 1024]⟩ : Shape).Idx → EReal) (mk : (⟨3, ![16, 1, 512]⟩ : Shape).Idx → EReal)
    (wa : (⟨2, ![1024, 1024]⟩ : Shape).Idx → EReal) (wc : (⟨2, ![2048, 1024]⟩ : Shape).Idx → EReal)
    (bi : (⟨1, ![1024]⟩ : Shape).Idx → EReal) : (⟨3, ![16, 512, 1024]⟩ : Shape).Idx → EReal :=
  fun i => blockOut (rowsOf ht ⟨(i 0).val, (i 0).isLt⟩) (rowsOf hs ⟨(i 0).val, (i 0).isLt⟩) (matOf wa) (maskOf mk ⟨(i 0).val, (i 0).isLt⟩)
    (topOf wc) (botOf wc) (vecOf bi) ⟨(i 1).val, (i 1).isLt⟩ ⟨(i 2).val, (i 2).isLt⟩

/-- At coordinates (b, t, l) it is the batch function of batch b at (t, l). -/
theorem wholeOut_apply (ht hs : (⟨3, ![16, 512, 1024]⟩ : Shape).Idx → EReal) (mk : (⟨3, ![16, 1, 512]⟩ : Shape).Idx → EReal)
    (wa : (⟨2, ![1024, 1024]⟩ : Shape).Idx → EReal) (wc : (⟨2, ![2048, 1024]⟩ : Shape).Idx → EReal)
    (bi : (⟨1, ![1024]⟩ : Shape).Idx → EReal) (b : Fin 16) (t : Fin 512) (l : Fin 1024) :
    wholeOut ht hs mk wa wc bi (ix3 b t l)
      = blockOut (rowsOf ht b) (rowsOf hs b) (matOf wa) (maskOf mk b) (topOf wc) (botOf wc) (vecOf bi) t l := rfl

/-- A function on the 16 × 512 × 1024 indices that agrees with `wholeOut` at every (b, t, l) is `wholeOut`. -/
theorem eq_wholeOut (f : (⟨3, ![16, 512, 1024]⟩ : Shape).Idx → EReal)
    (ht hs : (⟨3, ![16, 512, 1024]⟩ : Shape).Idx → EReal) (mk : (⟨3, ![16, 1, 512]⟩ : Shape).Idx → EReal)
    (wa : (⟨2, ![1024, 1024]⟩ : Shape).Idx → EReal) (wc : (⟨2, ![2048, 1024]⟩ : Shape).Idx → EReal)
    (bi : (⟨1, ![1024]⟩ : Shape).Idx → EReal)
    (h : ∀ (b : Fin 16) (t : Fin 512) (l : Fin 1024), f (ix3 b t l)
      = blockOut (rowsOf ht b) (rowsOf hs b) (matOf wa) (maskOf mk b) (topOf wc) (botOf wc) (vecOf bi) t l) :
    f = wholeOut ht hs mk wa wc bi := by
  funext i
  obtain ⟨b, t, l, rfl⟩ : ∃ (b : Fin 16) (t : Fin 512) (l : Fin 1024), i = ix3 b t l := ⟨i 0, i 1, i 2, eq_ix3 i⟩
  rw [h b t l, wholeOut_apply]

end Cert.Attn

end
-- ==== Proof.RefSpec.lean ====
/-
  The reference, stage by stage, is the batch function of `Spec.lean`: at batch b, each host operation read at its
  coordinates is the corresponding line of the specification — the first contraction the keys, the batched contraction the
  scores, the maximum along the last axis the row maximum (a fold of `max` from −∞ over the 512 source positions), the
  exponential of the difference times the broadcast mask the weight, the sum along the last axis (from 0) the normaliser, the
  quotient the attention weight, the batched contraction with the source rows the context. The concatenation along the last
  axis holds the context in its first 1024 columns and the target row in its last 1024, so the contraction of its 2048
  columns with the 2048 × 1024 matrix is, by `sum_halves`, the context against the matrix's top half plus the target row
  against its bottom half. The mask array is kept as the reference computes it from the token array.
-/
import proofs.«430731_j29618094473466_3_alg».proof.Proof.RefRead
import proofs.«430731_j29618094473466_3_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.AttnRef

open Cert.ReferenceIdeal Cert.ReferenceIdeal.Gen Cert.ReferenceIdeal.ReadP Idealize.ShloMosaic Idealize.ShloMosaic.ValueIdx
open Cert.Attn

/-! ## The operand indices of each stage, at coordinates -/

theorem lidx0 (b : Fin 16) (s : Fin 512) (l k : Fin 1024) : lidx_main_v0 (ix3 b s l) k = ix3 b s k :=
  funext fun a => by match a with | ⟨0, _⟩ => rfl | ⟨1, _⟩ => rfl | ⟨2, _⟩ => rfl

theorem ridx0 (b : Fin 16) (s : Fin 512) (l k : Fin 1024) : ridx_main_v0 (ix3 b s l) k = ix2 k l :=
  funext fun a => by match a with | ⟨0, _⟩ => rfl | ⟨1, _⟩ => rfl

theorem lidx1 (b : Fin 16) (t s : Fin 512) (k : Fin 1024) : lidx_main_v1 (ix3 b t s) k = ix3 b t k :=
  funext fun a => by match a with | ⟨0, _⟩ => rfl | ⟨1, _⟩ => rfl | ⟨2, _⟩ => rfl

theorem ridx1 (b : Fin 16) (t s : Fin 512) (k : Fin 1024) : ridx_main_v1 (ix3 b t s) k = ix3 b s k :=
  funext fun a => by match a with | ⟨0, _⟩ => rfl | ⟨1, _⟩ => rfl | ⟨2, _⟩ => rfl

theorem idx4 (b : Fin 16) (t s : Fin 512) : idx_main_v4 (ix3 b t s) = ix3 b t (0 : Fin 1) :=
  funext fun a => by match a with | ⟨0, _⟩ => rfl | ⟨1, _⟩ => rfl | ⟨2, _⟩ => rfl

theorem idx3 (b : Fin 16) (t : Fin 512) : idx_main_v3 (ix3 b t (0 : Fin 1)) = ix2 b t :=
  funext fun a => by match a with | ⟨0, _⟩ => rfl | ⟨1, _⟩ => rfl

theorem idx19 (b : Fin 16) (t s : Fin 512) : idx_main_v19 (ix3 b t s) = ix3 b (0 : Fin 1) s :=
  funext fun a => by match a with | ⟨0, _⟩ => rfl | ⟨1, _⟩ => rfl | ⟨2, _⟩ => rfl

theorem idx21 (b : Fin 16) (t s : Fin 512) : idx_main_v21 (ix2 b t) s = ix3 b t s :=
  funext fun a => by match a with | ⟨0, _⟩ => rfl | ⟨1, _⟩ => rfl | ⟨2, _⟩ => rfl

theorem idx23 (b : Fin 16) (t s : Fin 512) : idx_main_v23 (ix3 b t s) = ix3 b t (0 : Fin 1) :=
  funext fun a => by match a with | ⟨0, _⟩ => rfl | ⟨1, _⟩ => rfl | ⟨2, _⟩ => rfl

theorem idx22 (b : Fin 16) (t : Fin 512) : idx_main_v22 (ix3 b t (0 : Fin 1)) = ix2 b t :=
  funext fun a => by match a with | ⟨0, _⟩ => rfl | ⟨1, _⟩ => rfl

theorem lidx25 (b : Fin 16) (t s : Fin 512) (k : Fin 1024) : lidx_main_v25 (ix3 b t k) s = ix3 b t s :=
  funext fun a => by match a with | ⟨0, _⟩ => rfl | ⟨1, _⟩ => rfl | ⟨2, _⟩ => rfl

theorem ridx25 (b : Fin 16) (t s : Fin 512) (k : Fin 1024) : ridx_main_v25 (ix3 b t k) s = ix3 b s k :=
  funext fun a => by match a with | ⟨0, _⟩ => rfl | ⟨1, _⟩ => rfl | ⟨2, _⟩ => rfl

theorem lidx27 (b : Fin 16) (t : Fin 512) (l : Fin 1024) (k : Fin 2048) : lidx_main_v27 (ix3 b t l) k = ix3 b t k :=
  funext fun a => by match a with | ⟨0, _⟩ => rfl | ⟨1, _⟩ => rfl | ⟨2, _⟩ => rfl

theorem ridx27 (b : Fin 16) (t : Fin 512) (l : Fin 1024) (k : Fin 2048) : ridx_main_v27 (ix3 b t l) k = ix2 k l :=
  funext fun a => by match a with | ⟨0, _⟩ => rfl | ⟨1, _⟩ => rfl

theorem idx29 (b : Fin 16) (t : Fin 512) (l : Fin 1024) : idx_main_v29 (ix3 b t l) = ix3 (0 : Fin 1) (0 : Fin 1) l :=
  funext fun a => by match a with | ⟨0, _⟩ => rfl | ⟨1, _⟩ => rfl | ⟨2, _⟩ => rfl

theorem idx28 (l : Fin 1024) : idx_main_v28 (ix3 (0 : Fin 1) (0 : Fin 1) l) = ix1 l :=
  funext fun a => by match a with | ⟨0, _⟩ => rfl

/-- The maximum along the last axis of a 16 × 512 × 512 array leaves a 16 × 512 array. -/
theorem reduces_last : S16x512x512.Reduces [2] S16x512 := by decide

/-- Entry s of row (b, t), as that reduction names it. -/
theorem lift_last (b : Fin 16) (t s : Fin 512) : reduces_last.lift (ix2 b t) s = ix3 b t s :=
  funext fun a => Fin.ext (by match a with | ⟨0, _⟩ => rfl | ⟨1, _⟩ => rfl | ⟨2, _⟩ => rfl)

/-! ## The stages -/

section
variable (x0 x1 : (⟨S16x512x1024, .f32⟩ : BufTy).Contents (Elt Ideal)) (x2 : (⟨S16x512, .i32⟩ : BufTy).Contents (Elt Ideal))
  (x3 : (⟨S1024x1024, .f32⟩ : BufTy).Contents (Elt Ideal)) (x4 : (⟨S2048x1024, .f32⟩ : BufTy).Contents (Elt Ideal))
  (x5 : (⟨S1024, .f32⟩ : BufTy).Contents (Elt Ideal)) (b : Fin 16)

/-- The first contraction is the keys. -/
theorem keys_eq (s : Fin 512) (l : Fin 1024) :
    val_main_v0 (F := Ideal) x1 x3 (ix3 b s l) = keys (rowsOf x1 b) (matOf x3) s l := by
  rw [val_main_v0_apply]
  simp only [lidx0, ridx0]
  rfl

/-- The batched contraction over the feature axis is the scores. -/
theorem score_eq (t s : Fin 512) :
    val_main_v1 (F := Ideal) x0 x1 x3 (ix3 b t s) = score (rowsOf x0 b) (rowsOf x1 b) (matOf x3) t s := by
  rw [val_main_v1_apply]
  simp only [lidx1, ridx1, keys_eq]
  rfl

/-- The maximum along the last axis, from −∞, is the row maximum. -/
theorem rowMax_eq (t : Fin 512) :
    val_main_v2 (F := Ideal) x0 x1 x3 (ix2 b t) = rowMax (rowsOf x0 b) (rowsOf x1 b) (matOf x3) t := by
  unfold val_main_v2
  refine (Host.reduce_eq_fold_single (FloatOps.maximumf (F := Ideal) (φ := .f32)) _ _ reducesTo_S16x512x512_S16x512_d2
    reduces_last h_S_ (ix2 b t)).trans ?_
  exact congrArg (fun f : Fin 512 → EReal => (Finset.univ : Finset (Fin 512)).fold max (Ideal.ofBits .f32 0xFF800000#32) f)
    (funext fun s : Fin 512 =>
      (congrArg (val_main_v1 (F := Ideal) x0 x1 x3) (lift_last b t s)).trans (score_eq x0 x1 x3 b t s))

/-- The exponential of a score less its row's maximum. -/
theorem shifted_eq (t s : Fin 512) :
    val_main_v6 (F := Ideal) x0 x1 x3 (ix3 b t s)
      = Ideal.exp (score (rowsOf x0 b) (rowsOf x1 b) (matOf x3) t s - rowMax (rowsOf x0 b) (rowsOf x1 b) (matOf x3) t) := by
  rw [val_main_v6_apply, val_main_v5_apply, val_main_v4_apply, val_main_v3_apply]
  simp only [idx4, idx3, score_eq, rowMax_eq]
  rfl

/-- Times the mask: the weight. -/
theorem weight_eq (t s : Fin 512) :
    val_main_v20 (F := Ideal) x0 x1 x2 x3 (ix3 b t s)
      = weight (rowsOf x0 b) (rowsOf x1 b) (matOf x3) (maskOf (val_main_v18 (F := Ideal) x2) b) t s := by
  rw [val_main_v20_apply, val_main_v19_apply, shifted_eq]
  simp only [idx19]
  rfl

/-- The sum along the last axis, from 0, is the sum of a row's weights. -/
theorem norm_eq (t : Fin 512) :
    val_main_v21 (F := Ideal) x0 x1 x2 x3 (ix2 b t)
      = ∑ s : Fin 512, weight (rowsOf x0 b) (rowsOf x1 b) (matOf x3) (maskOf (val_main_v18 (F := Ideal) x2) b) t s := by
  rw [val_main_v21_apply, val_main_cst_1_apply]
  simp only [idx21, weight_eq]
  show Ideal.ofBits .f32 0x00000000#32 + _ = _
  rw [Ideal.ofBits_zero_f32, zero_add]

/-- The quotient is the attention weight. -/
theorem attn_eq (t s : Fin 512) :
    val_main_v24 (F := Ideal) x0 x1 x2 x3 (ix3 b t s)
      = attn (rowsOf x0 b) (rowsOf x1 b) (matOf x3) (maskOf (val_main_v18 (F := Ideal) x2) b) t s := by
  rw [val_main_v24_apply, val_main_v23_apply, val_main_v22_apply]
  simp only [idx23, idx22, weight_eq, norm_eq]
  rfl

/-- The batched contraction over the source positions is the context. -/
theorem context_eq (t : Fin 512) (k : Fin 1024) :
    val_main_v25 (F := Ideal) x0 x1 x2 x3 (ix3 b t k)
      = context (rowsOf x0 b) (rowsOf x1 b) (matOf x3) (maskOf (val_main_v18 (F := Ideal) x2) b) t k := by
  rw [val_main_v25_apply]
  simp only [lidx25, ridx25, attn_eq]
  rfl

/-- The first 1024 columns of the concatenation hold the context. -/
theorem cat_left (t : Fin 512) (k : Fin 1024) :
    val_main_v26 (F := Ideal) x0 x1 x2 x3 (ix3 b t (⟨k.val, by omega⟩ : Fin 2048))
      = val_main_v25 (F := Ideal) x0 x1 x2 x3 (ix3 b t k) := by
  unfold val_main_v26
  exact concatenate_pair_apply_left 2 _ _ concatenates_S16x512x1024_S16x512x1024_S16x512x2048_d2
    (ix3 b t (⟨k.val, by omega⟩ : Fin 2048)) rfl (ix3 b t k) (fun a => by match a with | ⟨0, _⟩ => rfl | ⟨1, _⟩ => rfl | ⟨2, _⟩ => rfl)

/-- The last 1024 columns of the concatenation hold the target row. -/
theorem cat_right (t : Fin 512) (k : Fin 1024) :
    val_main_v26 (F := Ideal) x0 x1 x2 x3 (ix3 b t (⟨1024 + k.val, by omega⟩ : Fin 2048)) = x0 (ix3 b t k) := by
  unfold val_main_v26
  exact concatenate_pair_apply_right 2 _ _ concatenates_S16x512x1024_S16x512x1024_S16x512x2048_d2
    (ix3 b t (⟨1024 + k.val, by omega⟩ : Fin 2048)) rfl rfl (ix3 b t k)
    (fun a => by match a with
      | ⟨0, _⟩ => exact fun _ => rfl
      | ⟨1, _⟩ => exact fun _ => rfl
      | ⟨2, _⟩ => exact fun h => absurd rfl h)
    (by show k.val + 1024 = 1024 + k.val; omega)

/-- The contraction of the concatenated row with the whole output matrix, split over its two halves. -/
theorem proj_eq (t : Fin 512) (l : Fin 1024) :
    val_main_v27 (F := Ideal) x0 x1 x2 x3 x4 (ix3 b t l)
      = ∑ k : Fin 1024, context (rowsOf x0 b) (rowsOf x1 b) (matOf x3) (maskOf (val_main_v18 (F := Ideal) x2) b) t k * topOf x4 k l
        + ∑ k : Fin 1024, rowsOf x0 b t k * botOf x4 k l := by
  rw [val_main_v27_apply, sum_halves]
  simp only [lidx27, ridx27, cat_left, cat_right, context_eq]

/-- The reference's result at (b, t, l) is the batch function of batch b at (t, l). -/
theorem out_eq (t : Fin 512) (l : Fin 1024) :
    val_main_v31 (F := Ideal) x0 x1 x2 x3 x4 x5 (ix3 b t l)
      = blockOut (rowsOf x0 b) (rowsOf x1 b) (matOf x3) (maskOf (val_main_v18 (F := Ideal) x2) b) (topOf x4) (botOf x4) (vecOf x5) t l := by
  rw [val_main_v31_apply, val_main_v30_apply, val_main_v29_apply, val_main_v28_apply, proj_eq]
  simp only [idx29, idx28]
  rfl

end

/-- The reference's result array is `wholeOut` of its arguments and of the mask it computes from the token array. -/
theorem ref_whole (x0 x1 : (⟨S16x512x1024, .f32⟩ : BufTy).Contents (Elt Ideal)) (x2 : (⟨S16x512, .i32⟩ : BufTy).Contents (Elt Ideal))
    (x3 : (⟨S1024x1024, .f32⟩ : BufTy).Contents (Elt Ideal)) (x4 : (⟨S2048x1024, .f32⟩ : BufTy).Contents (Elt Ideal))
    (x5 : (⟨S1024, .f32⟩ : BufTy).Contents (Elt Ideal)) :
    val_main_v31 (F := Ideal) x0 x1 x2 x3 x4 x5 = wholeOut x0 x1 (val_main_v18 (F := Ideal) x2) x3 x4 x5 :=
  eq_wholeOut _ _ _ _ _ _ _ (fun b t l => out_eq x0 x1 x2 x3 x4 x5 b t l)

end Cert.ReferenceIdeal.AttnRef

end
-- ==== Proof.BlockOps.lean ====
/-
  The vector operations of the attention body read at coordinates, on the extended reals.
  A matrix product into a zero accumulator is the plain sum over its one contracted axis: rows by columns for the two
  products that contract the left operand's columns with the right operand's rows, and rows by rows for the score product,
  which contracts the columns of both operands. A row maximum taken from −∞ and a row sum taken from 0 are the maximum and
  the sum over the row's 512 entries. A column of 512 numbers broadcast along the rows, a row of 512 numbers broadcast down
  the columns, and a 1 × 512 × 1024 block read as a 512 × 1024 matrix are read back at the coordinates they came from.
-/
import proofs.«430731_j29618094473466_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockOps

open Cert.KernelIdeal Cert.KernelIdeal.Gen Idealize.ShloMosaic Idealize.ShloMosaic.ValueIdx

/-! ## The product of a 512 × 1024 matrix with a 1024 × 1024 matrix -/

theorem lhsA_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

theorem lhsA_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

theorem rhsA_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

theorem rhsA_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (p, q) of the product is the sum over k of the left operand's (p, k) times the right operand's (k, q). -/
theorem matmulA_apply {φ₁ φ₂ : FTy} (a : FVec Ideal S512x1024 φ₁) (b : FVec Ideal S1024x1024 φ₂) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhsA_0 _ _
    | ⟨1, _⟩ => exact (lhsA_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhsA_0 _ _).trans hk
    | ⟨1, _⟩ => exact rhsA_1 _ _)
  rw [el, er]

/-! ## The product of a 512 × 1024 matrix with the transpose of a 512 × 1024 matrix -/

theorem lhsB_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl

theorem lhsB_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q

theorem rhsB_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl

theorem rhsB_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- Entry (p, q) of the product is the inner product of row p of the left operand with row q of the right operand. -/
theorem matmulB_apply {φ₁ φ₂ : FTy} (a : FVec Ideal S512x1024 φ₁) (b : FVec Ideal S512x1024 φ₂) (p q : Fin 512) :
    matmul dot_S512x1024_S512x1024_S512x512_1_1_0_0_n_n none a b (constant S512x512 .f32 0x00000000#32) (ix2 p q)
      = ∑ k : Fin 1024, a (ix2 p k) * b (ix2 q k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun a => Fin.ext (by
    match a with
    | ⟨0, _⟩ => exact lhsB_0 _ _
    | ⟨1, _⟩ => exact (lhsB_1 _ _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun a => Fin.ext (by
    match a with
    | ⟨0, _⟩ => exact rhsB_0 _ _
    | ⟨1, _⟩ => exact (rhsB_1 _ _).trans hk)
  rw [el, er]

/-! ## The product of a 512 × 512 matrix with a 512 × 1024 matrix -/

theorem lhsC_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl

theorem lhsC_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q

theorem rhsC_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q

theorem rhsC_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- Entry (p, q) of the product is the sum over k of the left operand's (p, k) times the right operand's (k, q). -/
theorem matmulC_apply {φ₁ φ₂ : FTy} (a : FVec Ideal S512x512 φ₁) (b : FVec Ideal S512x1024 φ₂) (p : Fin 512) (q : Fin 1024) :
    matmul dot_S512x512_S512x1024_S512x1024_1_0_0_1_n_n none a b (constant S512x1024 .f32 0x00000000#32) (ix2 p q)
      = ∑ k : Fin 512, a (ix2 p k) * b (ix2 k q) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p q) ((contrEquiv1 dot_S512x512_S512x1024_S512x1024_1_0_0_1_n_n 512 rfl rfl).symm k) = ix2 p k := funext fun a => Fin.ext (by
    match a with
    | ⟨0, _⟩ => exact lhsC_0 _ _
    | ⟨1, _⟩ => exact (lhsC_1 _ _).trans hk)
  have er : dot_S512x512_S512x1024_S512x1024_1_0_0_1_n_n.rhsIdx (ix2 p q) ((contrEquiv1 dot_S512x512_S512x1024_S512x1024_1_0_0_1_n_n 512 rfl rfl).symm k) = ix2 k q := funext fun a => Fin.ext (by
    match a with
    | ⟨0, _⟩ => exact (rhsC_0 _ _).trans hk
    | ⟨1, _⟩ => exact rhsC_1 _ _)
  rw [el, er]

/-! ## Reductions along a row of a 512 × 512 matrix -/

/-- The index of entry s of row p, as the reduction names it. -/
theorem lift_row (p s : Fin 512) : reduces_S512x512_S512.lift (ix1 p) s = ix2 p s :=
  funext fun a => Fin.ext (by match a with | ⟨0, _⟩ => rfl | ⟨1, _⟩ => rfl)

/-- A row maximum taken from −∞ is the maximum over the row's entries. -/
theorem rowMax_apply (v : FVec Ideal S512x512 .f32) (hφ : FKind.Formats .f32)
    (hacc : (0xFF800000#32 : BitVec 32) = FKind.maximumf.neutral .f32 hφ) (p : Fin 512) :
    multiReduction .maximumf [1] S512 v 0xFF800000#32 reduces_S512x512_S512 hφ hacc (ix1 p)
      = (Finset.univ : Finset (Fin 512)).fold max (Ideal.ofBits .f32 0xFF800000#32) (fun s => v (ix2 p s)) :=
  (Ideal.multiReduction_maximumf_single v _ reduces_S512x512_S512 hφ hacc (ix1 p)).trans
    (congrArg (fun f : Fin 512 → EReal => (Finset.univ : Finset (Fin 512)).fold max (Ideal.ofBits .f32 0xFF800000#32) f)
      (funext fun s => congrArg v (lift_row p s)))

/-- A row sum taken from 0 is the sum of the row's entries. -/
theorem rowSum_apply (v : FVec Ideal S512x512 .f32) (hφ : FKind.Formats .f32)
    (hacc : (0x00000000#32 : BitVec 32) = FKind.add.neutral .f32 hφ) (p : Fin 512) :
    multiReduction .add [1] S512 v 0x00000000#32 reduces_S512x512_S512 hφ hacc (ix1 p)
      = ∑ s : Fin 512, v (ix2 p s) :=
  (Ideal.multiReduction_add_single v _ reduces_S512x512_S512 hφ hacc (ix1 p)).trans
    (Finset.sum_congr rfl fun s _ => congrArg v (lift_row p s))

/-! ## Layouts -/

/-- A column of 512 numbers, broadcast along the rows of a 512 × 512 matrix, holds at (p, q) the column's entry p. -/
theorem colBroadcast_apply (v : FVec Ideal S512 .f32) (p q : Fin 512) :
    broadcastTo S512x512 (shapeCast S512x1 v shapeCasts_S512_S512x1) broadcasts_S512x1_S512x512 (ix2 p q) = v (ix1 p) := by
  refine (broadcastTo_apply _ _ (ix2 p q) (ix2 p (0 : Fin 1)) (fun a => match a with
    | ⟨0, _⟩ => by show p.val = (if (512 : Nat) = 1 then 0 else p.val); rw [if_neg (by decide)]
    | ⟨1, _⟩ => by show 0 = (if (1 : Nat) = 1 then 0 else q.val); rw [if_pos rfl])).trans ?_
  exact shapeCast_apply _ _ (ix2 p (0 : Fin 1)) (ix1 p) (by
    rw [Shape.rowMajor_val_one, Shape.rowMajor_val_two]; show p.val = p.val * 1 + 0; omega)

/-- A 1 × 1 × 512 row, broadcast down the columns of a 512 × 512 matrix, holds at (p, q) the row's entry q. -/
theorem rowBroadcast_apply (v : Vec Ideal S1x1x512 .f32) (p q : Fin 512) :
    broadcastTo S512x512 (shapeCast S1x512 v shapeCasts_S1x1x512_S1x512) broadcasts_S1x512_S512x512 (ix2 p q)
      = v (ix3 (0 : Fin 1) (0 : Fin 1) q) := by
  refine (broadcastTo_apply _ _ (ix2 p q) (ix2 (0 : Fin 1) q) (fun a => match a with
    | ⟨0, _⟩ => by show 0 = (if (1 : Nat) = 1 then 0 else p.val); rw [if_pos rfl]
    | ⟨1, _⟩ => by show q.val = (if (512 : Nat) = 1 then 0 else q.val); rw [if_neg (by decide)])).trans ?_
  exact shapeCast_apply _ _ (ix2 (0 : Fin 1) q) (ix3 (0 : Fin 1) (0 : Fin 1) q) (by
    rw [Shape.rowMajor_val_three, Shape.rowMajor_val_two]; show (0 * 1 + 0) * 512 + q.val = 0 * 512 + q.val; omega)

/-- A 1 × 512 × 1024 block read as a 512 × 1024 matrix holds at (p, q) the block's entry (0, p, q). -/
theorem flatten_apply (v : Vec Ideal S1x512x1024 .f32) (p : Fin 512) (q : Fin 1024) :
    shapeCast S512x1024 v shapeCasts_S1x512x1024_S512x1024 (ix2 p q) = v (ix3 (0 : Fin 1) p q) :=
  shapeCast_apply _ _ (ix2 p q) (ix3 (0 : Fin 1) p q) (by
    rw [Shape.rowMajor_val_three, Shape.rowMajor_val_two]; show (0 * 512 + p.val) * 1024 + q.val = p.val * 1024 + q.val; omega)

/-- The exponential and the hyperbolic tangent act entry by entry. -/
theorem exp_apply {s : Shape} (v : FVec Ideal s .f32) (i : s.Idx) : exp v i = Ideal.exp (v i) := rfl
theorem tanh_apply {s : Shape} (v : FVec Ideal s .f32) (i : s.Idx) : tanh v i = Ideal.tanh (v i) := rfl

end Cert.KernelIdeal.BlockOps

end
-- ==== Proof.BlockValue.lean ====
/-
  What the attention body leaves in its output block, read at coordinates: for loaded blocks `P0` (target rows), `P1`
  (source rows), `P2` (score matrix), `P3` and `P5` (the two halves of the output matrix), `P4` (mask) and `P6` (bias),
  entry (0, t, l) of the block is the batch function of `Spec.lean` of the blocks' entries. The body's intermediate values are
  named in the order it computes them — the source rows as a matrix, the keys, the scores, the row maxima, the weights, their
  row sums, the attention weights, the context — and each is read at its coordinates from the one before by the matching
  operation of `BlockOps.lean`; changes of float format are the identity on the extended reals.
-/
import proofs.«430731_j29618094473466_3_alg».proof.Proof.Gen.KernelIdeal.Value
import proofs.«430731_j29618094473466_3_alg».proof.Proof.BlockOps
import proofs.«430731_j29618094473466_3_alg».proof.Proof.Spec

noncomputable section

namespace Cert.KernelIdeal.BlockValue

open Cert.KernelIdeal Cert.KernelIdeal.Gen Cert.KernelIdeal.BlockOps Idealize.ShloMosaic Idealize.ShloMosaic.ValueIdx
open Cert.Attn

/-! ## The blocks by coordinates -/

/-- A 1 × 512 × 1024 block as 512 rows of 1024 numbers. -/
abbrev rowsB (P : FVec Ideal S1x512x1024 .f32) : Fin 512 → Fin 1024 → EReal := fun t k => P (ix3 (0 : Fin 1) t k)
/-- A 1024 × 1024 block by coordinates. -/
abbrev matB (P : FVec Ideal S1024x1024 .bf16) : Fin 1024 → Fin 1024 → EReal := fun k l => P (ix2 k l)
/-- A 1 × 1 × 512 mask block by its last coordinate. -/
abbrev maskB (P : FVec Ideal S1x1x512 .f32) : Fin 512 → EReal := fun s => P (ix3 (0 : Fin 1) (0 : Fin 1) s)
/-- A 1 × 1024 bias block by its last coordinate. -/
abbrev biasB (P : FVec Ideal S1x1024 .f32) : Fin 1024 → EReal := fun l => P (ix2 (0 : Fin 1) l)

/-! ## The body's intermediate values -/

/-- The source rows as a 512 × 1024 matrix. -/
def srcV (P1 : FVec Ideal S1x512x1024 .f32) : FVec Ideal S512x1024 .bf16 :=
  truncf .bf16 (shapeCast S512x1024 P1 shapeCasts_S1x512x1024_S512x1024) bitsLt_bf16_f32

/-- The keys. -/
def keysV (P1 : FVec Ideal S1x512x1024 .f32) (P2 : FVec Ideal S1024x1024 .bf16) : FVec Ideal S512x1024 .f32 :=
  matmul dot_S512x1024_S1024x1024_S512x1024_1_0_0_1_n_n none (srcV P1) (shapeCast S1024x1024 P2 shapeCasts_S1024x1024_S1024x1024) (constant S512x1024 .f32 0x00000000#32)

/-- The scores. -/
def scoreV (P0 P1 : FVec Ideal S1x512x1024 .f32) (P2 : FVec Ideal S1024x1024 .bf16) : FVec Ideal S512x512 .f32 :=
  matmul dot_S512x1024_S512x1024_S512x512_1_1_0_0_n_n none (k0_pay3 (F := Ideal) P0) (truncf .bf16 (keysV P1 P2) bitsLt_bf16_f32) (constant S512x512 .f32 0x00000000#32)

/-- The row maxima. -/
def maxV (P0 P1 : FVec Ideal S1x512x1024 .f32) (P2 : FVec Ideal S1024x1024 .bf16) : FVec Ideal S512 .f32 :=
  multiReduction .maximumf [1] S512 (scoreV P0 P1 P2) 0xFF800000#32 reduces_S512x512_S512 (.inl rfl) rfl

/-- The weights. -/
def weightV (P0 P1 : FVec Ideal S1x512x1024 .f32) (P2 : FVec Ideal S1024x1024 .bf16) (P4 : FVec Ideal S1x1x512 .f32) : FVec Ideal S512x512 .f32 :=
  mulf (exp (subf (scoreV P0 P1 P2) (broadcastTo S512x512 (shapeCast S512x1 (maxV P0 P1 P2) shapeCasts_S512_S512x1) broadcasts_S512x1_S512x512)))
    (broadcastTo S512x512 (shapeCast S1x512 P4 shapeCasts_S1x1x512_S1x512) broadcasts_S1x512_S512x512)

/-- The row sums of the weights. -/
def normV (P0 P1 : FVec Ideal S1x512x1024 .f32) (P2 : FVec Ideal S1024x1024 .bf16) (P4 : FVec Ideal S1x1x512 .f32) : FVec Ideal S512 .f32 :=
  multiReduction .add [1] S512 (weightV P0 P1 P2 P4) 0x00000000#32 reduces_S512x512_S512 (.inl rfl) rfl

/-- The attention weights. -/
def attnV (P0 P1 : FVec Ideal S1x512x1024 .f32) (P2 : FVec Ideal S1024x1024 .bf16) (P4 : FVec Ideal S1x1x512 .f32) : FVec Ideal S512x512 .f32 :=
  divf (weightV P0 P1 P2 P4) (broadcastTo S512x512 (shapeCast S512x1 (normV P0 P1 P2 P4) shapeCasts_S512_S512x1) broadcasts_S512x1_S512x512)

/-- The context. -/
def ctxV (P0 P1 : FVec Ideal S1x512x1024 .f32) (P2 : FVec Ideal S1024x1024 .bf16) (P4 : FVec Ideal S1x1x512 .f32) : FVec Ideal S512x1024 .f32 :=
  matmul dot_S512x512_S512x1024_S512x1024_1_0_0_1_n_n none (truncf .bf16 (attnV P0 P1 P2 P4) bitsLt_bf16_f32) (srcV P1) (constant S512x1024 .f32 0x00000000#32)

/-- The body's first projection is the context against the top half of the output matrix. -/
theorem pay4_eq (P0 P1 : FVec Ideal S1x512x1024 .f32) (P2 : FVec Ideal S1024x1024 .bf16) (P3 : FVec Ideal S1024x1024 .bf16) (P4 : FVec Ideal S1x1x512 .f32) :
    k0_pay4 (F := Ideal) P0 P1 P2 P3 P4
      = matmul dot_S512x1024_S1024x1024_S512x1024_1_0_0_1_n_n none (truncf .bf16 (ctxV P0 P1 P2 P4) bitsLt_bf16_f32)
          (shapeCast S1024x1024 P3 shapeCasts_S1024x1024_S1024x1024) (constant S512x1024 .f32 0x00000000#32) := rfl

/-- The body's second projection is the target rows against the bottom half of the output matrix. -/
theorem pay5_eq (P0 : FVec Ideal S1x512x1024 .f32) (P5 : FVec Ideal S1024x1024 .bf16) :
    k0_pay5 (F := Ideal) P0 P5
      = matmul dot_S512x1024_S1024x1024_S512x1024_1_0_0_1_n_n none (k0_pay3 (F := Ideal) P0) (shapeCast S1024x1024 P5 shapeCasts_S1024x1024_S1024x1024) (constant S512x1024 .f32 0x00000000#32) := rfl

/-! ## Each read at its coordinates -/

theorem srcV_apply (P1 : FVec Ideal S1x512x1024 .f32) (s : Fin 512) (k : Fin 1024) : srcV P1 (ix2 s k) = rowsB P1 s k :=
  flatten_apply P1 s k

theorem tgtV_apply (P0 : FVec Ideal S1x512x1024 .f32) (t : Fin 512) (k : Fin 1024) : k0_pay3 (F := Ideal) P0 (ix2 t k) = rowsB P0 t k :=
  flatten_apply P0 t k

theorem keysV_apply (P1 : FVec Ideal S1x512x1024 .f32) (P2 : FVec Ideal S1024x1024 .bf16) (s : Fin 512) (l : Fin 1024) :
    keysV P1 P2 (ix2 s l) = keys (rowsB P1) (matB P2) s l := by
  unfold keysV
  refine (matmulA_apply _ _ s l).trans ?_
  exact Finset.sum_congr rfl fun k _ => by rw [srcV_apply, shapeCast_self]

theorem scoreV_apply (P0 P1 : FVec Ideal S1x512x1024 .f32) (P2 : FVec Ideal S1024x1024 .bf16) (t s : Fin 512) :
    scoreV P0 P1 P2 (ix2 t s) = score (rowsB P0) (rowsB P1) (matB P2) t s := by
  unfold scoreV
  refine (matmulB_apply _ _ t s).trans ?_
  refine Finset.sum_congr rfl fun k _ => ?_
  show k0_pay3 (F := Ideal) P0 (ix2 t k) * keysV P1 P2 (ix2 s k) = _
  rw [tgtV_apply, keysV_apply]

theorem maxV_apply (P0 P1 : FVec Ideal S1x512x1024 .f32) (P2 : FVec Ideal S1024x1024 .bf16) (t : Fin 512) :
    maxV P0 P1 P2 (ix1 t) = rowMax (rowsB P0) (rowsB P1) (matB P2) t := by
  unfold maxV
  refine (rowMax_apply _ (.inl rfl) rfl t).trans ?_
  exact congrArg (fun f : Fin 512 → EReal => (Finset.univ : Finset (Fin 512)).fold max (Ideal.ofBits .f32 0xFF800000#32) f)
    (funext fun s : Fin 512 => scoreV_apply P0 P1 P2 t s)

theorem weightV_apply (P0 P1 : FVec Ideal S1x512x1024 .f32) (P2 : FVec Ideal S1024x1024 .bf16) (P4 : FVec Ideal S1x1x512 .f32) (t s : Fin 512) :
    weightV P0 P1 P2 P4 (ix2 t s) = weight (rowsB P0) (rowsB P1) (matB P2) (maskB P4) t s := by
  unfold weightV
  show Ideal.exp (scoreV P0 P1 P2 (ix2 t s)
        - broadcastTo S512x512 (shapeCast S512x1 (maxV P0 P1 P2) shapeCasts_S512_S512x1) broadcasts_S512x1_S512x512 (ix2 t s))
      * broadcastTo S512x512 (shapeCast S1x512 P4 shapeCasts_S1x1x512_S1x512) broadcasts_S1x512_S512x512 (ix2 t s) = _
  rw [colBroadcast_apply, rowBroadcast_apply, scoreV_apply, maxV_apply]
  rfl

theorem normV_apply (P0 P1 : FVec Ideal S1x512x1024 .f32) (P2 : FVec Ideal S1024x1024 .bf16) (P4 : FVec Ideal S1x1x512 .f32) (t : Fin 512) :
    normV P0 P1 P2 P4 (ix1 t) = ∑ s : Fin 512, weight (rowsB P0) (rowsB P1) (matB P2) (maskB P4) t s := by
  unfold normV
  refine (rowSum_apply _ (.inl rfl) rfl t).trans ?_
  exact Finset.sum_congr rfl fun s _ => weightV_apply P0 P1 P2 P4 t s

theorem attnV_apply (P0 P1 : FVec Ideal S1x512x1024 .f32) (P2 : FVec Ideal S1024x1024 .bf16) (P4 : FVec Ideal S1x1x512 .f32) (t s : Fin 512) :
    attnV P0 P1 P2 P4 (ix2 t s) = attn (rowsB P0) (rowsB P1) (matB P2) (maskB P4) t s := by
  unfold attnV
  show Ideal.div (weightV P0 P1 P2 P4 (ix2 t s))
      (broadcastTo S512x512 (shapeCast S512x1 (normV P0 P1 P2 P4) shapeCasts_S512_S512x1) broadcasts_S512x1_S512x512 (ix2 t s)) = _
  rw [colBroadcast_apply, weightV_apply, normV_apply]
  rfl

theorem ctxV_apply (P0 P1 : FVec Ideal S1x512x1024 .f32) (P2 : FVec Ideal S1024x1024 .bf16) (P4 : FVec Ideal S1x1x512 .f32) (t : Fin 512) (k : Fin 1024) :
    ctxV P0 P1 P2 P4 (ix2 t k) = context (rowsB P0) (rowsB P1) (matB P2) (maskB P4) t k := by
  unfold ctxV
  refine (matmulC_apply _ _ t k).trans ?_
  refine Finset.sum_congr rfl fun s _ => ?_
  show attnV P0 P1 P2 P4 (ix2 t s) * srcV P1 (ix2 s k) = _
  rw [attnV_apply, srcV_apply]

theorem pay4_apply (P0 P1 : FVec Ideal S1x512x1024 .f32) (P2 : FVec Ideal S1024x1024 .bf16) (P3 : FVec Ideal S1024x1024 .bf16) (P4 : FVec Ideal S1x1x512 .f32) (t : Fin 512) (l : Fin 1024) :
    k0_pay4 (F := Ideal) P0 P1 P2 P3 P4 (ix2 t l)
      = ∑ k : Fin 1024, context (rowsB P0) (rowsB P1) (matB P2) (maskB P4) t k * matB P3 k l := by
  rw [pay4_eq]
  refine (matmulA_apply _ _ t l).trans ?_
  refine Finset.sum_congr rfl fun k _ => ?_
  show ctxV P0 P1 P2 P4 (ix2 t k) * shapeCast S1024x1024 P3 shapeCasts_S1024x1024_S1024x1024 (ix2 k l) = _
  rw [ctxV_apply, shapeCast_self]

theorem pay5_apply (P0 : FVec Ideal S1x512x1024 .f32) (P5 : FVec Ideal S1024x1024 .bf16) (t : Fin 512) (l : Fin 1024) :
    k0_pay5 (F := Ideal) P0 P5 (ix2 t l) = ∑ k : Fin 1024, rowsB P0 t k * matB P5 k l := by
  rw [pay5_eq]
  refine (matmulA_apply _ _ t l).trans ?_
  refine Finset.sum_congr rfl fun k _ => ?_
  rw [tgtV_apply, shapeCast_self]

/-! ## The output block -/

theorem ix7_0_eq (t : Fin 512) (l : Fin 1024) : Value.ix7_0 (ix3 (0 : Fin 1) t l) = ix2 t l :=
  funext fun a => by match a with | ⟨0, _⟩ => rfl | ⟨1, _⟩ => rfl
theorem ix7_1_eq (t : Fin 512) (l : Fin 1024) : Value.ix7_1 (ix3 (0 : Fin 1) t l) = ix2 t l :=
  funext fun a => by match a with | ⟨0, _⟩ => rfl | ⟨1, _⟩ => rfl
theorem ix7_2_eq (t : Fin 512) (l : Fin 1024) : Value.ix7_2 (ix3 (0 : Fin 1) t l) = ix2 (0 : Fin 1) l :=
  funext fun a => by match a with | ⟨0, _⟩ => rfl | ⟨1, _⟩ => rfl

/-- Entry (0, t, l) of the output block is the batch function of the blocks' entries. -/
theorem block_apply (P0 P1 : FVec Ideal S1x512x1024 .f32) (P2 : FVec Ideal S1024x1024 .bf16) (P3 : FVec Ideal S1024x1024 .bf16) (P4 : FVec Ideal S1x1x512 .f32)
    (P5 : FVec Ideal S1024x1024 .bf16) (P6 : FVec Ideal S1x1024 .f32) (t : Fin 512) (l : Fin 1024) :
    Value.E7 (F := Ideal) P0 P1 P2 P3 P4 P5 P6 (ix3 (0 : Fin 1) t l)
      = blockOut (rowsB P0) (rowsB P1) (matB P2) (maskB P4) (matB P3) (matB P5) (biasB P6) t l := by
  show Ideal.tanh ((k0_pay4 (F := Ideal) P0 P1 P2 P3 P4 (Value.ix7_0 (ix3 (0 : Fin 1) t l)) + k0_pay5 (F := Ideal) P0 P5 (Value.ix7_1 (ix3 (0 : Fin 1) t l)))
      + P6 (Value.ix7_2 (ix3 (0 : Fin 1) t l))) = _
  rw [ix7_0_eq, ix7_1_eq, ix7_2_eq, pay4_apply, pay5_apply]
  rfl

/-- The same with the blocks' entries named: whatever the seven blocks hold at their coordinates, the output block holds the
    batch function of those. -/
theorem block_of_reads (P0 P1 : FVec Ideal S1x512x1024 .f32) (P2 : FVec Ideal S1024x1024 .bf16) (P3 : FVec Ideal S1024x1024 .bf16) (P4 : FVec Ideal S1x1x512 .f32)
    (P5 : FVec Ideal S1024x1024 .bf16) (P6 : FVec Ideal S1x1024 .f32)
    (X H : Fin 512 → Fin 1024 → EReal) (Wa : Fin 1024 → Fin 1024 → EReal) (Mk : Fin 512 → EReal)
    (Wt Wb : Fin 1024 → Fin 1024 → EReal) (Bi : Fin 1024 → EReal)
    (h0 : ∀ t k, P0 (ix3 (0 : Fin 1) t k) = X t k) (h1 : ∀ s k, P1 (ix3 (0 : Fin 1) s k) = H s k)
    (h2 : ∀ k l, P2 (ix2 k l) = Wa k l) (h3 : ∀ k l, P3 (ix2 k l) = Wt k l)
    (h4 : ∀ s, P4 (ix3 (0 : Fin 1) (0 : Fin 1) s) = Mk s) (h5 : ∀ k l, P5 (ix2 k l) = Wb k l)
    (h6 : ∀ l, P6 (ix2 (0 : Fin 1) l) = Bi l) (t : Fin 512) (l : Fin 1024) :
    Value.E7 (F := Ideal) P0 P1 P2 P3 P4 P5 P6 (ix3 (0 : Fin 1) t l) = blockOut X H Wa Mk Wt Wb Bi t l := by
  rw [block_apply]
  have e0 : rowsB P0 = X := funext fun t => funext fun k => h0 t k
  have e1 : rowsB P1 = H := funext fun s => funext fun k => h1 s k
  have e2 : matB P2 = Wa := funext fun k => funext fun l => h2 k l
  have e3 : matB P3 = Wt := funext fun k => funext fun l => h3 k l
  have e4 : maskB P4 = Mk := funext fun s => h4 s
  have e5 : matB P5 = Wb := funext fun k => funext fun l => h5 k l
  have e6 : biasB P6 = Bi := funext fun l => h6 l
  rw [e0, e1, e2, e3, e4, e5, e6]

end Cert.KernelIdeal.BlockValue

end
-- ==== Proof.BlockArray.lean ====
/-
  From the blocks to the whole array. The call runs the attention body once per batch: grid point t stages batch t's
  block of the mask and of the two activation arrays, the whole score matrix, the two halves of the output matrix and the
  bias, and writes back block t of the output. Each staged block is read off the array the call finds: the activations are
  the arguments themselves; the score matrix, the two halves and the bias are the arguments through a change of float format,
  a slice of rows 0–1023 or 1024–2047, and a reshape, all of which keep every entry; the mask is the array the host computes
  from the token argument, which is the one the reference computes. So point t writes block t of `wholeOut` of the arguments
  (`Spec.lean`), the 16 blocks tile the 16 × 512 × 1024 result, and the result array ends holding `wholeOut`.
-/
import proofs.«430731_j29618094473466_3_alg».proof.Proof.Gen.KernelIdeal.Value
import proofs.«430731_j29618094473466_3_alg».proof.Proof.BlockValue
import proofs.«430731_j29618094473466_3_alg».proof.Proof.RefRead
import proofs.«430731_j29618094473466_3_alg».proof.Proof.Spec
import Idealize.ShloMosaic.Lib.StableHlo.Run
import Idealize.ShloMosaic.Lib.Pipeline.Value
import Idealize.ShloMosaic.Lib.ValueIdx

noncomputable section

namespace Cert.KernelIdeal.AttnArray

open Cert.KernelIdeal Cert.KernelIdeal.Gen Idealize.ShloMosaic Idealize.ShloMosaic.TcCoe Idealize.SL.Sem Idealize.ShloMosaic.ValueIdx
open Idealize.ShloMosaic.Pipeline (Dat)
open Cert.Attn

variable (m : (ℓ : Loc nD τ sig) → Buf (Elt Ideal) ℓ) (ρ : Dev nD → PrngReg)

/-! ## The arguments, and the result as one function of them -/

abbrev aHt (c : Dev nD) : FVec Ideal S16x512x1024 .f32 := m ((c : Thread nD τ).loc main_arg0)
abbrev aHs (c : Dev nD) : FVec Ideal S16x512x1024 .f32 := m ((c : Thread nD τ).loc main_arg1)
abbrev aTok (c : Dev nD) : (⟨S16x512, .i32⟩ : BufTy).Contents (Elt Ideal) := m ((c : Thread nD τ).loc main_arg2)
abbrev aWa (c : Dev nD) : FVec Ideal S1024x1024 .f32 := m ((c : Thread nD τ).loc main_arg3)
abbrev aWc (c : Dev nD) : FVec Ideal S2048x1024 .f32 := m ((c : Thread nD τ).loc main_arg4)
abbrev aB (c : Dev nD) : FVec Ideal S1024 .f32 := m ((c : Thread nD τ).loc main_arg5)

/-- The mask array, as the reference computes it from the token array. -/
abbrev aMask (c : Dev nD) : FVec Ideal S16x1x512 .f32 := Cert.ReferenceIdeal.ReadP.val_main_v18 (F := Ideal) (aTok m c)

/-- What the result array ends holding. -/
abbrev result (c : Dev nD) : Buf (Elt Ideal) ((c : Thread nD τ).loc main_v18) :=
  wholeOut (aHt m c) (aHs m c) (aMask m c) (aWa m c) (aWc m c) (aB m c)

/-! ## The arrays the host prepares before the call -/

/-- The mask the host computes before the call is the reference's. -/
theorem V_mask (c : Dev nD) : (V m c main_v11 : FVec Ideal S16x1x512 .f32) = aMask m c := by
  dsimp only [V, hostOps0]; after_results <;> rfl

theorem V_wa (c : Dev nD) : (V m c main_v12 : FVec Ideal S1024x1024 .bf16) = truncf .bf16 (aWa m c) bitsLt_bf16_f32 := by
  dsimp only [V, hostOps0]; after_results <;> rfl

theorem V_top (c : Dev nD) : (V m c main_v14 : FVec Ideal S1024x1024 .bf16)
    = truncf .bf16 (extractStridedSlice S1024x1024 ![0, 0] (aWc m c) slices_S2048x1024_S1024x1024_0_0) bitsLt_bf16_f32 := by
  dsimp only [V, hostOps0]; after_results <;> rfl

theorem V_bot (c : Dev nD) : (V m c main_v16 : FVec Ideal S1024x1024 .bf16)
    = truncf .bf16 (extractStridedSlice S1024x1024 ![1024, 0] (aWc m c) slices_S2048x1024_S1024x1024_1024_0) bitsLt_bf16_f32 := by
  dsimp only [V, hostOps0]; after_results <;> rfl

theorem V_bias (c : Dev nD) : (V m c main_v17 : FVec Ideal S1x1024 .f32) = shapeCast S1x1024 (aB m c) shapeCasts_S1024_S1x1024 := by
  dsimp only [V, hostOps0]; after_results <;> rfl

/-- The score matrix in the other float format holds the same entries. -/
theorem wa_at (c : Dev nD) (k l : Fin 1024) : (V m c main_v12 : FVec Ideal S1024x1024 .bf16) (ix2 k l) = aWa m c (ix2 k l) :=
  congrFun (V_wa m c) (ix2 k l)

/-- The top half holds rows 0–1023 of the output matrix. -/
theorem top_at (c : Dev nD) (k l : Fin 1024) :
    (V m c main_v14 : FVec Ideal S1024x1024 .bf16) (ix2 k l) = aWc m c (ix2 (⟨k.val, by omega⟩ : Fin 2048) l) :=
  (congrFun (V_top m c) (ix2 k l)).trans
    (extractStridedSlice_apply ![0, 0] (aWc m c) slices_S2048x1024_S1024x1024_0_0 (ix2 k l) (ix2 (⟨k.val, by omega⟩ : Fin 2048) l)
      (fun a => match a with
        | ⟨0, _⟩ => by show k.val = 0 + k.val; omega
        | ⟨1, _⟩ => by show l.val = 0 + l.val; omega))

/-- The bottom half holds rows 1024–2047 of the output matrix. -/
theorem bot_at (c : Dev nD) (k l : Fin 1024) :
    (V m c main_v16 : FVec Ideal S1024x1024 .bf16) (ix2 k l) = aWc m c (ix2 (⟨1024 + k.val, by omega⟩ : Fin 2048) l) :=
  (congrFun (V_bot m c) (ix2 k l)).trans
    (extractStridedSlice_apply ![1024, 0] (aWc m c) slices_S2048x1024_S1024x1024_1024_0 (ix2 k l) (ix2 (⟨1024 + k.val, by omega⟩ : Fin 2048) l)
      (fun a => match a with
        | ⟨0, _⟩ => by show 1024 + k.val = 1024 + k.val; rfl
        | ⟨1, _⟩ => by show l.val = 0 + l.val; omega))

/-- The bias as a 1 × 1024 row holds the bias. -/
theorem bias_at (c : Dev nD) (l : Fin 1024) : (V m c main_v17 : FVec Ideal S1x1024 .f32) (ix2 (0 : Fin 1) l) = aB m c (ix1 l) :=
  (congrFun (V_bias m c) (ix2 (0 : Fin 1) l)).trans
    (shapeCast_apply _ _ (ix2 (0 : Fin 1) l) (ix1 l) (by
      rw [Shape.rowMajor_val_one, Shape.rowMajor_val_two]; show l.val = 0 * 1024 + l.val; omega))

/-! ## Which block each window stages at grid point t -/

theorem idx_w0 : ∀ t : Fin cfg0.N, win0_0.index t (0 : Fin 3) = t.val ∧ win0_0.index t (1 : Fin 3) = 0 ∧ win0_0.index t (2 : Fin 3) = 0 :=
  (by decide +kernel : ∀ t : Fin grid0.N, _)

theorem idx_w1 : ∀ t : Fin cfg0.N, win0_1.index t (0 : Fin 3) = t.val ∧ win0_1.index t (1 : Fin 3) = 0 ∧ win0_1.index t (2 : Fin 3) = 0 :=
  (by decide +kernel : ∀ t : Fin grid0.N, _)

theorem idx_w2 : ∀ t : Fin cfg0.N, win0_2.index t (0 : Fin 3) = t.val ∧ win0_2.index t (1 : Fin 3) = 0 ∧ win0_2.index t (2 : Fin 3) = 0 :=
  (by decide +kernel : ∀ t : Fin grid0.N, _)

theorem idx_w3 : ∀ t : Fin cfg0.N, win0_3.index t (0 : Fin 2) = 0 ∧ win0_3.index t (1 : Fin 2) = 0 :=
  (by decide +kernel : ∀ t : Fin grid0.N, _)

theorem idx_w4 : ∀ t : Fin cfg0.N, win0_4.index t (0 : Fin 2) = 0 ∧ win0_4.index t (1 : Fin 2) = 0 :=
  (by decide +kernel : ∀ t : Fin grid0.N, _)

theorem idx_w5 : ∀ t : Fin cfg0.N, win0_5.index t (0 : Fin 2) = 0 ∧ win0_5.index t (1 : Fin 2) = 0 :=
  (by decide +kernel : ∀ t : Fin grid0.N, _)

theorem idx_w6 : ∀ t : Fin cfg0.N, win0_6.index t (0 : Fin 2) = 0 ∧ win0_6.index t (1 : Fin 2) = 0 :=
  (by decide +kernel : ∀ t : Fin grid0.N, _)

theorem idx_w7 : ∀ t : Fin cfg0.N, win0_7.index t (0 : Fin 3) = t.val ∧ win0_7.index t (1 : Fin 3) = 0 ∧ win0_7.index t (2 : Fin 3) = 0 :=
  (by decide +kernel : ∀ t : Fin grid0.N, _)

/-- Grid point t works on batch t. -/
def batch (t : Fin cfg0.N) : Fin 16 := ⟨t.val, by have h : t.val < grid0.N := t.isLt; rw [N_0] at h; exact h⟩

theorem tgt_read (c : Dev nD) (t : Fin cfg0.N) (tt : Fin 512) (k : Fin 1024) :
    (iblk m c 1 t : FVec Ideal S1x512x1024 .f32) (ix3 (0 : Fin 1) tt k) = aHt m c (ix3 (batch t) tt k) := by
  obtain ⟨e0, e1, e2⟩ := idx_w1 t
  show V m c main_arg0 (((cfg0.win 1).blk t).view.emb (ix3 (0 : Fin 1) tt k)) = _
  rw [V_main_arg0]
  congr 1
  funext a
  apply Fin.ext
  match a with
  | ⟨0, _⟩ => show win0_1.index t (0 : Fin 3) * 1 + 1 * 0 = t.val; rw [e0]; omega
  | ⟨1, _⟩ => show win0_1.index t (1 : Fin 3) * 512 + 1 * tt.val = tt.val; rw [e1]; omega
  | ⟨2, _⟩ => show win0_1.index t (2 : Fin 3) * 1024 + 1 * k.val = k.val; rw [e2]; omega

theorem src_read (c : Dev nD) (t : Fin cfg0.N) (s : Fin 512) (k : Fin 1024) :
    (iblk m c 2 t : FVec Ideal S1x512x1024 .f32) (ix3 (0 : Fin 1) s k) = aHs m c (ix3 (batch t) s k) := by
  obtain ⟨e0, e1, e2⟩ := idx_w2 t
  show V m c main_arg1 (((cfg0.win 2).blk t).view.emb (ix3 (0 : Fin 1) s k)) = _
  rw [V_main_arg1]
  congr 1
  funext a
  apply Fin.ext
  match a with
  | ⟨0, _⟩ => show win0_2.index t (0 : Fin 3) * 1 + 1 * 0 = t.val; rw [e0]; omega
  | ⟨1, _⟩ => show win0_2.index t (1 : Fin 3) * 512 + 1 * s.val = s.val; rw [e1]; omega
  | ⟨2, _⟩ => show win0_2.index t (2 : Fin 3) * 1024 + 1 * k.val = k.val; rw [e2]; omega

theorem mask_read (c : Dev nD) (t : Fin cfg0.N) (s : Fin 512) :
    (iblk m c 0 t : FVec Ideal S1x1x512 .f32) (ix3 (0 : Fin 1) (0 : Fin 1) s) = aMask m c (ix3 (batch t) (0 : Fin 1) s) := by
  obtain ⟨e0, e1, e2⟩ := idx_w0 t
  show V m c main_v11 (((cfg0.win 0).blk t).view.emb (ix3 (0 : Fin 1) (0 : Fin 1) s)) = _
  rw [V_mask]
  congr 1
  funext a
  apply Fin.ext
  match a with
  | ⟨0, _⟩ => show win0_0.index t (0 : Fin 3) * 1 + 1 * 0 = t.val; rw [e0]; omega
  | ⟨1, _⟩ => show win0_0.index t (1 : Fin 3) * 1 + 1 * 0 = 0; rw [e1]
  | ⟨2, _⟩ => show win0_0.index t (2 : Fin 3) * 512 + 1 * s.val = s.val; rw [e2]; omega

theorem wa_read (c : Dev nD) (t : Fin cfg0.N) (k l : Fin 1024) :
    (iblk m c 3 t : FVec Ideal S1024x1024 .bf16) (ix2 k l) = aWa m c (ix2 k l) := by
  obtain ⟨e0, e1⟩ := idx_w3 t
  have he : ((cfg0.win 3).blk t).view.emb (ix2 k l) = ix2 k l := by
    funext a
    apply Fin.ext
    match a with
    | ⟨0, _⟩ => show win0_3.index t (0 : Fin 2) * 1024 + 1 * k.val = k.val; rw [e0]; omega
    | ⟨1, _⟩ => show win0_3.index t (1 : Fin 2) * 1024 + 1 * l.val = l.val; rw [e1]; omega
  show V m c main_v12 (((cfg0.win 3).blk t).view.emb (ix2 k l)) = _
  rw [he]
  exact wa_at m c k l

theorem top_read (c : Dev nD) (t : Fin cfg0.N) (k l : Fin 1024) :
    (iblk m c 4 t : FVec Ideal S1024x1024 .bf16) (ix2 k l) = aWc m c (ix2 (⟨k.val, by omega⟩ : Fin 2048) l) := by
  obtain ⟨e0, e1⟩ := idx_w4 t
  have he : ((cfg0.win 4).blk t).view.emb (ix2 k l) = ix2 k l := by
    funext a
    apply Fin.ext
    match a with
    | ⟨0, _⟩ => show win0_4.index t (0 : Fin 2) * 1024 + 1 * k.val = k.val; rw [e0]; omega
    | ⟨1, _⟩ => show win0_4.index t (1 : Fin 2) * 1024 + 1 * l.val = l.val; rw [e1]; omega
  show V m c main_v14 (((cfg0.win 4).blk t).view.emb (ix2 k l)) = _
  rw [he]
  exact top_at m c k l

theorem bot_read (c : Dev nD) (t : Fin cfg0.N) (k l : Fin 1024) :
    (iblk m c 5 t : FVec Ideal S1024x1024 .bf16) (ix2 k l) = aWc m c (ix2 (⟨1024 + k.val, by omega⟩ : Fin 2048) l) := by
  obtain ⟨e0, e1⟩ := idx_w5 t
  have he : ((cfg0.win 5).blk t).view.emb (ix2 k l) = ix2 k l := by
    funext a
    apply Fin.ext
    match a with
    | ⟨0, _⟩ => show win0_5.index t (0 : Fin 2) * 1024 + 1 * k.val = k.val; rw [e0]; omega
    | ⟨1, _⟩ => show win0_5.index t (1 : Fin 2) * 1024 + 1 * l.val = l.val; rw [e1]; omega
  show V m c main_v16 (((cfg0.win 5).blk t).view.emb (ix2 k l)) = _
  rw [he]
  exact bot_at m c k l

theorem bias_read (c : Dev nD) (t : Fin cfg0.N) (l : Fin 1024) :
    (iblk m c 6 t : FVec Ideal S1x1024 .f32) (ix2 (0 : Fin 1) l) = aB m c (ix1 l) := by
  obtain ⟨e0, e1⟩ := idx_w6 t
  have he : ((cfg0.win 6).blk t).view.emb (ix2 (0 : Fin 1) l) = ix2 (0 : Fin 1) l := by
    funext a
    apply Fin.ext
    match a with
    | ⟨0, _⟩ => show win0_6.index t (0 : Fin 2) * 1 + 1 * 0 = 0; rw [e0]
    | ⟨1, _⟩ => show win0_6.index t (1 : Fin 2) * 1024 + 1 * l.val = l.val; rw [e1]; omega
  show V m c main_v17 (((cfg0.win 6).blk t).view.emb (ix2 (0 : Fin 1) l)) = _
  rw [he]
  exact bias_at m c l

/-! ## What grid point t writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- Entry (0, tt, l) of point t's output block sits at (t, tt, l) of the result array. -/
theorem emb7 (t : Fin cfg0.N) (tt : Fin 512) (l : Fin 1024) :
    ((cfg0.win 7).blk t).view.emb (ix3 (0 : Fin 1) tt l) = ix3 (batch t) tt l := by
  obtain ⟨e0, e1, e2⟩ := idx_w7 t
  funext a
  apply Fin.ext
  match a with
  | ⟨0, _⟩ => show win0_7.index t (0 : Fin 3) * 1 + 1 * 0 = t.val; rw [e0]; omega
  | ⟨1, _⟩ => show win0_7.index t (1 : Fin 3) * 512 + 1 * tt.val = tt.val; rw [e1]; omega
  | ⟨2, _⟩ => show win0_7.index t (2 : Fin 3) * 1024 + 1 * l.val = l.val; rw [e2]; omega

/-- The body's output block at point t is block t of the result. -/
theorem point_block (c : Dev nD) (t : Fin cfg0.N) :
    out0_7 (F := Ideal) (iblk m c 0 t) (iblk m c 1 t) (iblk m c 2 t) (iblk m c 3 t) (iblk m c 4 t) (iblk m c 5 t) (iblk m c 6 t)
      = fun y : S1x512x1024.Idx => result m c (((cfg0.win 7).blk t).view.emb y) := by
  funext y
  unfold out0_7
  rw [Value.canon7_eq]
  simp only [View.ld_unit_zero (S := S1x512x1024) hz3, View.ld_unit_zero (S := S1024x1024) hz2,
    View.ld_unit_zero (S := S1x1024) hz2, View.ld_unit_zero (S := S1x1x512) hz3]
  obtain ⟨y0, tt, l, rfl⟩ : ∃ (y0 : Fin 1) (tt : Fin 512) (l : Fin 1024), y = ix3 y0 tt l := ⟨y 0, y 1, y 2, eq_ix3 y⟩
  obtain rfl : y0 = 0 := Fin.eq_zero y0
  rw [emb7]
  show _ = wholeOut (aHt m c) (aHs m c) (aMask m c) (aWa m c) (aWc m c) (aB m c) (ix3 (batch t) tt l)
  rw [wholeOut_apply]
  exact BlockValue.block_of_reads (iblk (F := Ideal) m c 1 t) (iblk m c 2 t) (iblk m c 3 t) (iblk m c 4 t) (iblk m c 0 t) (iblk m c 5 t) (iblk m c 6 t)
    _ _ _ _ _ _ _
    (fun t' k => tgt_read m c t t' k) (fun s k => src_read m c t s k) (fun k l => wa_read m c t k l)
    (fun k l => top_read m c t k l) (fun s => mask_read m c t s) (fun k l => bot_read m c t k l) (fun l => bias_read m c t l) tt l

/-- What point t writes back is block t of the result. -/
theorem flushed7_eq (c : Dev nD) (t : Fin cfg0.N) :
    (dats m 0 c).flushed 7 t = ((cfg0.win 7).blk t).view.read (Elt Ideal) (result m c) := by
  rw [Value.flushed7]
  funext j
  show out0_7 (F := Ideal) (iblk m c 0 t) (iblk m c 1 t) (iblk m c 2 t) (iblk m c 3 t) (iblk m c 4 t) (iblk m c 5 t) (iblk m c 6 t) j
    = result m c (((cfg0.win 7).blk t).view.emb j)
  exact congrFun (point_block m c t) j

/-! ## The 16 blocks tile the result -/

/-- An index of the result array is in point t's block iff each coordinate is in the block's range on its axis. -/
theorem mem_blk7 (t : Fin cfg0.N) (i : S16x512x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v18).slice (win0_7.rect t)).set ↔ _
  rw [View.set_slice_whole, Rect.mem_set_unit]
  exact Iff.rfl

/-- Every index (b, tt, l) of the result is in the block of grid point b. -/
theorem covered7 (i : S16x512x1024.Idx) : ∃ t : Fin cfg0.N, (cfg0.win 7).flush t = true ∧ i ∈ ((cfg0.win 7).blk t).view.set := by
  have hb : (i 0).val < grid0.N := by rw [N_0]; exact (i 0).isLt
  have h1 : (i 1).val < 512 := (i 1).isLt
  have h2 : (i 2).val < 1024 := (i 2).isLt
  obtain ⟨e0, e1, e2⟩ := idx_w7 ⟨(i 0).val, hb⟩
  refine ⟨⟨(i 0).val, hb⟩, flush0_7 _, ?_⟩
  rw [mem_blk7]
  intro a
  match a with
  | ⟨0, _⟩ => show win0_7.index ⟨(i 0).val, hb⟩ (0 : Fin 3) * 1 ≤ (i 0).val ∧ (i 0).val < win0_7.index ⟨(i 0).val, hb⟩ (0 : Fin 3) * 1 + 1; rw [e0]; show (i 0).val * 1 ≤ (i 0).val ∧ (i 0).val < (i 0).val * 1 + 1; omega
  | ⟨1, _⟩ => show win0_7.index ⟨(i 0).val, hb⟩ (1 : Fin 3) * 512 ≤ (i 1).val ∧ (i 1).val < win0_7.index ⟨(i 0).val, hb⟩ (1 : Fin 3) * 512 + 512; rw [e1]; omega
  | ⟨2, _⟩ => show win0_7.index ⟨(i 0).val, hb⟩ (2 : Fin 3) * 1024 ≤ (i 2).val ∧ (i 2).val < win0_7.index ⟨(i 0).val, hb⟩ (2 : Fin 3) * 1024 + 1024; rw [e2]; omega

/-- So the result array ends holding `wholeOut` of the arguments. -/
theorem final7 (c : Dev nD) : (dats m 0 c).arrAt 7 cfg0.N = result m c :=
  (dats m 0 c).arrAt_eq_of_cover 7 (result m c) (fun t _ => flushed7_eq m c t) (covered7)

/-! ## The run -/

/-- Every weakly fair execution of the kernel's program ends with the result array at `wholeOut` of the arguments and the
    arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2⟩) (Value.run_blocks m ρ)

end Cert.KernelIdeal.AttnArray

end
-- ==== Proof.lean ====
/-
  The kernel computes, one batch per grid point, masked dot-product attention followed by a projection and `tanh`; the
  reference computes the same over all 16 batches at once. On the extended reals both are the function `Cert.Attn.wholeOut` of
  the arguments: the kernel's output matrix is applied in two halves (the context against rows 0–1023, the target row
  against rows 1024–2047) where the reference applies the whole matrix to the concatenated row, and a sum over 2048 terms is
  the sum of its two halves; every other operation is the same on both sides, changes of float format being the identity.
  The three frames are the generated runs; the idealization rewrote nothing, so `preserves` is trivial.
-/
import proofs.«430731_j29618094473466_3_alg».proof.Defs
import proofs.«430731_j29618094473466_3_alg».proof.Proof.Gen.Kernel
import proofs.«430731_j29618094473466_3_alg».proof.Proof.Gen.Kernel.Skeleton
import proofs.«430731_j29618094473466_3_alg».proof.Proof.Gen.Kernel.Launch
import proofs.«430731_j29618094473466_3_alg».proof.Proof.Gen.Kernel.Points
import proofs.«430731_j29618094473466_3_alg».proof.Proof.Gen.Kernel.Frame
import proofs.«430731_j29618094473466_3_alg».proof.Proof.Gen.KernelIdeal
import proofs.«430731_j29618094473466_3_alg».proof.Proof.Gen.KernelIdeal.Skeleton
import proofs.«430731_j29618094473466_3_alg».proof.Proof.Gen.KernelIdeal.Launch
import proofs.«430731_j29618094473466_3_alg».proof.Proof.Gen.KernelIdeal.Points
import proofs.«430731_j29618094473466_3_alg».proof.Proof.Gen.KernelIdeal.Frame
import proofs.«430731_j29618094473466_3_alg».proof.Proof.Gen.ReferenceIdeal
import proofs.«430731_j29618094473466_3_alg».proof.Proof.Gen.Pre_finite_inputs
import proofs.«430731_j29618094473466_3_alg».proof.Proof.Gen.KernelIdeal.Value
import proofs.«430731_j29618094473466_3_alg».proof.Proof.RefRun
import proofs.«430731_j29618094473466_3_alg».proof.Proof.RefRead
import proofs.«430731_j29618094473466_3_alg».proof.Proof.RefSpec
import proofs.«430731_j29618094473466_3_alg».proof.Proof.BlockArray
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

/-- From memories that agree on the arguments both programs end with the result array at `wholeOut` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.AttnArray.result m c, Cert.KernelIdeal.AttnArray.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v31_eq, Cert.ReferenceIdeal.AttnRef.ref_whole,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
